-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) (main_arg6 : FVec F S256x128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩

abbrev nBuf : Space → Nat
  | .hbm => 52
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x1, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x128, .f32⟩
  | .local _ .vmem, ⟨5, _⟩ => ⟨S256x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S256x128_S256x128_0_0 : ∀ a, (![0, 0] : Fin 2 → Nat) a + S256x128.size a ≤ S256x128.size a
  h_S256x128 : 0 < S256x128.numel
  natLt_1_32 : 1 < 32
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x256, .f32⟩
  | .hbm, ⟨22, _⟩ => ⟨S100000x256, .f32⟩
  | .hbm, ⟨23, _⟩ => ⟨S_, .f32⟩
  | .hbm, ⟨24, _⟩ => ⟨S256x128, .f32⟩
  | .hbm, ⟨25, _⟩ => ⟨S256x128, .i1⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S1600000x1, .i32⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S256x128 : S_.BroadcastsInDim S256x128 (![] : Fin 0 → Fin S256x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Spec.lean ====
/-
  The layer's arithmetic, entry by entry, at the ideal values.

  A graph layer with a binarised weight mask: the source features are scaled row by row with a degree factor and
  multiplied with the masked weights; messages are gathered along the edges, weighted and summed into their target rows;
  the sums are scaled row by row with a second degree factor and shifted by the bias. Two of these steps are dense and
  are what this file describes: the projection `(feat · dsc) × (gate(mask) · weight)` and the closing
  `agg · dsc + bias`. Each is written as ONE function of whole arrays, read at an entry `(p, q)`.

  The mask's gate is `1` where the mask entry exceeds one half and `0` elsewhere. One program writes the gate as the
  comparison's bit widened to a word and converted as a signed integer, the other converts the bit itself; one of them
  further replaces the gate `g` by `(g − r) + r` with `r` the mask entry (a straight-through estimator), which is `g` again
  whenever `r` is a real number — the one place where finiteness of an input is used.

  Degree factors arrive as a column `[N, 1]`; the programs lay a column along the columns of a matrix in two spellings
  (a broadcast of the column, or a broadcast in dimensions of a vector made a column), and a bias row along the rows in two
  more. The first section reads each spelling at an entry.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«136725_j89515708383727_1_alg».proof.Proof.LibDot

noncomputable section

open scoped BigOperators

namespace Cert.GNN

open Idealize.ShloMosaic Idealize.ShloMosaic.ValueIdx

/-! ## Columns and rows laid along a matrix, read at an entry -/

section Layout
variable {α : Type}

/-- A vector made a column `[a, 1]` reads, at `(p, u)`, the vector at `p`. -/
theorem col_of_vec_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A vector broadcast in dimension 0 to a column `[a, 1]` reads, at `(p, u)`, the vector at `p`. -/
theorem bcast_col_of_vec_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- A column `[a, 1]` broadcast to `[a, b]` reads, at `(p, k)`, the column at `p`. -/
theorem bcastTo_col_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast in dimensions `[0, 1]` to `[a, b]` reads, at `(p, k)`, the column at `p`. -/
theorem bcastInDim_col_apply {a b : ℕ} (hbc : (⟨2, ![a, 1]⟩ : Shape).BroadcastsInDim ⟨2, ![a, b]⟩ ![0, 1])
    (y : (⟨2, ![a, 1]⟩ : Shape).Idx → α) (p : Fin a) (k : Fin b) :
    broadcastInDim ⟨2, ![a, b]⟩ ![0, 1] hbc y (ix2 p k) = y (ix2 p (0 : Fin 1)) := by
  refine broadcastInDim_apply ![0, 1] hbc y (ix2 p k) (ix2 p (0 : Fin 1)) fun ax => ?_
  match ax with
  | ⟨0, _⟩ =>
    show p.val = if a = 1 then 0 else p.val
    split
    · have := p.isLt; omega
    · rfl
  | ⟨1, _⟩ => rfl

/-- A vector broadcast in dimension 1 to a row `[1, b]` reads, at `(u, q)`, the vector at `q`. -/
theorem bcast_row_of_vec_apply {b : ℕ} (hd : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] hd x (ix2 u q) = x (ix1 q) := by
  refine broadcastInDim_apply ![1] hd x (ix2 u q) (ix1 q) fun ax => ?_
  match ax with
  | ⟨0, _⟩ =>
    show q.val = if b = 1 then 0 else q.val
    split
    · have := q.isLt; omega
    · rfl

end Layout

/-! ## The mask's gate -/

/-- The gate of a mask entry: `1` if the entry exceeds one half, else `0`. -/
def gate (x : EReal) : ℝ := ((Ideal.cmp .ogt x (Ideal.ofBits .f32 0x3F000000#32)).toNat : ℝ)

/-- The comparison's bit widened to a word and converted as a signed integer is the gate. -/
theorem gate_of_widened {s : Shape} (v : FVec Ideal s .f32) (h : 1 < 32) (i : s.Idx) :
    (sitofp .f32 (extui 32 (cmpf .ogt v (broadcast s (Scalar.ofBits (F := Ideal) .f32 0x3F000000#32))) h) : FVec Ideal s .f32) i
      = ((gate (v i) : ℝ) : EReal) := by
  rw [sitofp_extui_eq_uitofp]
  rfl

/-- The comparison's bit converted as it is, against the broadcast constant, is the gate. -/
theorem gate_of_bit {s : Shape} (v : FVec Ideal s .f32) (hb : (⟨0, ![]⟩ : Shape).BroadcastsInDim s ![]) (i : s.Idx) :
    (uitofp .f32 (cmpf .ogt v (broadcastInDim s ![] hb (constant (⟨0, ![]⟩ : Shape) .f32 0x3F000000#32))) : FVec Ideal s .f32) i
      = ((gate (v i) : ℝ) : EReal) := rfl

/-- Subtracting a real number and adding it back changes nothing. -/
theorem straight_through (g r : ℝ) : ((g : EReal) - (r : EReal)) + (r : EReal) = (g : EReal) := by
  rw [← EReal.coe_sub, ← EReal.coe_add, sub_add_cancel]

/-! ## The two dense steps as functions of whole arrays -/

section Steps
variable {N K M : ℕ}

/-- Entry `(p, q)` of the projection: row `p` of the features, each entry scaled with the row's degree factor, against
    column `q` of the gated weights. -/
def projAt (feat : FVec Ideal ⟨2, ![N, K]⟩ .f32) (dsc : FVec Ideal ⟨2, ![N, 1]⟩ .f32) (wgt msk : FVec Ideal ⟨2, ![K, M]⟩ .f32)
    (p : Fin N) (q : Fin M) : EReal :=
  ∑ k : Fin K, (feat (ix2 p k) * dsc (ix2 p (0 : Fin 1))) * (((gate (msk (ix2 k q)) : ℝ) : EReal) * wgt (ix2 k q))

/-- The projection as an array. -/
def projected (feat : FVec Ideal ⟨2, ![N, K]⟩ .f32) (dsc : FVec Ideal ⟨2, ![N, 1]⟩ .f32) (wgt msk : FVec Ideal ⟨2, ![K, M]⟩ .f32) :
    FVec Ideal ⟨2, ![N, M]⟩ .f32 := fun i => projAt feat dsc wgt msk (i 0) (i 1)

/-- Entry `(p, q)` of the closing step: the aggregated entry scaled with row `p`'s degree factor, plus the bias at `q`. -/
def closedAt (agg : FVec Ideal ⟨2, ![N, M]⟩ .f32) (dsc : FVec Ideal ⟨2, ![N, 1]⟩ .f32) (bias : FVec Ideal ⟨2, ![1, M]⟩ .f32)
    (p : Fin N) (q : Fin M) : EReal :=
  agg (ix2 p q) * dsc (ix2 p (0 : Fin 1)) + bias (ix2 (0 : Fin 1) q)

/-- The closing step as an array. -/
def closed (agg : FVec Ideal ⟨2, ![N, M]⟩ .f32) (dsc : FVec Ideal ⟨2, ![N, 1]⟩ .f32) (bias : FVec Ideal ⟨2, ![1, M]⟩ .f32) :
    FVec Ideal ⟨2, ![N, M]⟩ .f32 := fun i => closedAt agg dsc bias (i 0) (i 1)

/-- ONE BLOCK OF ROWS, as a kernel computes it: the block of features times its column of degree factors, rounded to a
    narrower format (no change at the ideal values), against the gated weights rounded likewise, accumulated from zero,
    read at `(p, q)`: the projection's sum over the block's row. -/
theorem block_product_apply {R : ℕ} (prec : Option ContractPrecision) (x0 : FVec Ideal ⟨2, ![R, K]⟩ .f32) (x1 : FVec Ideal ⟨2, ![R, 1]⟩ .f32)
    (wgt msk : FVec Ideal ⟨2, ![K, M]⟩ .f32) (hs : (⟨2, ![R, 1]⟩ : Shape).ShapeCasts ⟨2, ![R, 1]⟩)
    (hb : (⟨2, ![R, 1]⟩ : Shape).Broadcasts ⟨2, ![R, K]⟩) (hw : 1 < 32) (ht : FTy.bf16.bits < FTy.f32.bits) (p : Fin R) (q : Fin M) :
    FloatOps.matmul (DotDims.plain R K M) prec
        (truncf .bf16 (mulf x0 (broadcastTo ⟨2, ![R, K]⟩ (shapeCast ⟨2, ![R, 1]⟩ x1 hs) hb)) ht)
        (truncf .bf16 (mulf (sitofp .f32 (extui 32 (cmpf .ogt msk (broadcast ⟨2, ![K, M]⟩ (Scalar.ofBits (F := Ideal) .f32 0x3F000000#32))) hw)) wgt) ht)
        (constant ⟨2, ![R, M]⟩ .f32 0x00000000#32) (ix2 p q)
      = ∑ k : Fin K, (x0 (ix2 p k) * x1 (ix2 p (0 : Fin 1))) * (((gate (msk (ix2 k q)) : ℝ) : EReal) * wgt (ix2 k q)) := by
  rw [matmul_plain_zero_apply]
  refine Finset.sum_congr rfl fun k _ => ?_
  rw [truncf_apply, truncf_apply, mulf_apply, mulf_apply, bcastTo_col_apply, shapeCast_self, gate_of_widened]

/-- THE WHOLE PRODUCT, as a host program computes it: the features times the degree vector laid along the columns, against
    the straight-through gated weights, is the projection — given that every mask entry is a real number. -/
theorem host_product_eq (prec : Option ContractPrecision) (feat : FVec Ideal ⟨2, ![N, K]⟩ .f32) (d : FVec Ideal ⟨1, ![N]⟩ .f32)
    (wgt msk : FVec Ideal ⟨2, ![K, M]⟩ .f32)
    (h1 : (⟨1, ![N]⟩ : Shape).BroadcastsInDim ⟨2, ![N, 1]⟩ ![0]) (h2 : (⟨2, ![N, 1]⟩ : Shape).BroadcastsInDim ⟨2, ![N, K]⟩ ![0, 1])
    (hc : (⟨0, ![]⟩ : Shape).BroadcastsInDim ⟨2, ![K, M]⟩ ![]) (hs : (⟨1, ![N]⟩ : Shape).ShapeCasts ⟨2, ![N, 1]⟩)
    (hfin : ∀ i, ∃ r : ℝ, msk i = (r : EReal)) :
    Host.dotGeneral (DotDims.plain N K M) prec
        (mulf feat (broadcastInDim ⟨2, ![N, K]⟩ ![0, 1] h2 (broadcastInDim ⟨2, ![N, 1]⟩ ![0] h1 d)))
        (mulf (addf (subf (uitofp .f32 (cmpf .ogt msk (broadcastInDim ⟨2, ![K, M]⟩ ![] hc (constant (⟨0, ![]⟩ : Shape) .f32 0x3F000000#32)))) msk) msk) wgt)
      = projected feat (shapeCast ⟨2, ![N, 1]⟩ d hs) wgt msk := by
  funext i
  obtain ⟨p, q, rfl⟩ : ∃ (p : Fin N) (q : Fin M), i = ix2 p q := ⟨i 0, i 1, eq_ix2 i⟩
  show FloatOps.dotGeneral (F := Ideal) (DotDims.plain N K M) prec _ _ _ (ix2 p q) = projAt feat _ wgt msk p q
  rw [dotGeneral_plain_apply]
  unfold projAt
  refine Finset.sum_congr rfl fun k _ => ?_
  rw [mulf_apply, mulf_apply, bcastInDim_col_apply, bcast_col_of_vec_apply, col_of_vec_apply, addf_apply, subf_apply, gate_of_bit]
  obtain ⟨r, hr⟩ := hfin (ix2 k q)
  rw [hr, straight_through]

/-- THE CLOSING STEP, as a host program computes it: the aggregate times the degree vector laid along the columns, plus the
    bias vector laid along the rows. -/
theorem host_closed_eq (agg : FVec Ideal ⟨2, ![N, M]⟩ .f32) (d : FVec Ideal ⟨1, ![N]⟩ .f32) (b : FVec Ideal ⟨1, ![M]⟩ .f32)
    (h1 : (⟨1, ![N]⟩ : Shape).BroadcastsInDim ⟨2, ![N, 1]⟩ ![0]) (h2 : (⟨2, ![N, 1]⟩ : Shape).BroadcastsInDim ⟨2, ![N, M]⟩ ![0, 1])
    (h3 : (⟨1, ![M]⟩ : Shape).BroadcastsInDim ⟨2, ![1, M]⟩ ![1]) (h4 : (⟨2, ![1, M]⟩ : Shape).BroadcastsInDim ⟨2, ![N, M]⟩ ![0, 1])
    (hs : (⟨1, ![N]⟩ : Shape).ShapeCasts ⟨2, ![N, 1]⟩) (hs' : (⟨1, ![M]⟩ : Shape).ShapeCasts ⟨2, ![1, M]⟩) :
    addf (mulf agg (broadcastInDim ⟨2, ![N, M]⟩ ![0, 1] h2 (broadcastInDim ⟨2, ![N, 1]⟩ ![0] h1 d)))
        (broadcastInDim ⟨2, ![N, M]⟩ ![0, 1] h4 (broadcastInDim ⟨2, ![1, M]⟩ ![1] h3 b))
      = closed agg (shapeCast ⟨2, ![N, 1]⟩ d hs) (shapeCast ⟨2, ![1, M]⟩ b hs') := by
  funext i
  obtain ⟨p, q, rfl⟩ : ∃ (p : Fin N) (q : Fin M), i = ix2 p q := ⟨i 0, i 1, eq_ix2 i⟩
  show _ = closedAt agg _ _ p q
  unfold closedAt
  rw [addf_apply, mulf_apply, bcastInDim_col_apply, bcast_col_of_vec_apply, broadcastInDim_oneRow_apply, bcast_row_of_vec_apply,
    col_of_vec_apply, shapeCast_a_1a_apply]

/-- ONE BLOCK OF ROWS of the closing step, as a kernel computes it: the block times its column of degree factors laid along
    the columns, plus the bias row laid along the rows, read at `(p, q)`. -/
theorem block_closed_apply {R : ℕ} (x0 : FVec Ideal ⟨2, ![R, M]⟩ .f32) (x1 : FVec Ideal ⟨2, ![R, 1]⟩ .f32) (x2 : FVec Ideal ⟨2, ![1, M]⟩ .f32)
    (hs0 : (⟨2, ![R, M]⟩ : Shape).ShapeCasts ⟨2, ![R, M]⟩) (hs1 : (⟨2, ![R, 1]⟩ : Shape).ShapeCasts ⟨2, ![R, 1]⟩)
    (hs2 : (⟨2, ![1, M]⟩ : Shape).ShapeCasts ⟨2, ![1, M]⟩)
    (hb1 : (⟨2, ![R, 1]⟩ : Shape).Broadcasts ⟨2, ![R, M]⟩) (hb2 : (⟨2, ![1, M]⟩ : Shape).Broadcasts ⟨2, ![R, M]⟩) (p : Fin R) (q : Fin M) :
    addf (mulf (shapeCast ⟨2, ![R, M]⟩ x0 hs0) (broadcastTo ⟨2, ![R, M]⟩ (shapeCast ⟨2, ![R, 1]⟩ x1 hs1) hb1))
        (broadcastTo ⟨2, ![R, M]⟩ (shapeCast ⟨2, ![1, M]⟩ x2 hs2) hb2) (ix2 p q)
      = x0 (ix2 p q) * x1 (ix2 p (0 : Fin 1)) + x2 (ix2 (0 : Fin 1) q) := by
  rw [addf_apply, mulf_apply, shapeCast_self, shapeCast_self, shapeCast_self, bcastTo_col_apply, broadcastTo_1b_ab_apply]

end Steps

end Cert.GNN

end
-- ==== Proof.Projection.lean ====
/-
  The first kernel region, read as one function of whole arrays.

  The region walks the feature rows in 25 blocks of 4000. At block `t` it reads rows `4000·t … 4000·t + 3999` of the features
  and of the column of degree factors, the whole weight and mask matrices, and writes rows `4000·t …` of the result: each
  entry the sum over the 256 input channels of (feature · degree factor) · (gate(mask) · weight). The blocks tile the
  result, so after the region the result array is the projection `Cert.GNN.projected` of the four arrays the region found.
-/
import proofs.«136725_j89515708383727_1_alg».proof.Proof.Gen.KernelIdeal.Frame
import proofs.«136725_j89515708383727_1_alg».proof.Proof.Spec
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Projection

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an entry of the block: the projection's sum over the block's row. -/
theorem stored_apply (v0 v5 : Vec Ideal S256x128 .f32) (v7 : Vec Ideal S4000x256 .f32) (v8 : Vec Ideal S4000x1 .f32) (j : S4000x128.Idx) :
    k0_pay1 v0 v5 v7 v8 j
      = ∑ k : Fin 256, (v7 (ix2 (j 0 : Fin 4000) k) * v8 (ix2 (j 0 : Fin 4000) (0 : Fin 1)))
          * (((gate (v0 (ix2 k (j 1 : Fin 128))) : ℝ) : EReal) * v5 (ix2 k (j 1 : Fin 128))) := by
  obtain ⟨p, q, rfl⟩ : ∃ (p : Fin 4000) (q : Fin 128), j = ix2 p q := ⟨j 0, j 1, eq_ix2 j⟩
  exact block_product_apply none v7 v8 v5 v0 _ _ _ _ p q

/-- Where each window's block sits at grid point `t`: the row windows at block row `t`, the matrices at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature block at point `t` is rows `4000·t …` of the feature array. -/
theorem feat_block (c : Dev nD) (t : Fin cfg0.N) (p : Fin 4000) (k : Fin 256) (r : Fin 100000) (hr : r.val = t.val * 4000 + p.val) :
    (iblk0 V c 0 t : Vec Ideal S4000x256 .f32) (ix2 p k) = (V c main_arg0 : S100000x256.Idx → Elt Ideal .f32) (ix2 r k) := by
  obtain ⟨e0, e1, -⟩ := block_index t
  unfold iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = r.val; rw [e0, hr]; omega
  | ⟨1, _⟩ => show win0_0.index t (1 : Fin 2) * 256 + 1 * k.val = k.val; rw [e1]; omega

/-- The degree-factor block at point `t` is rows `4000·t …` of the column. -/
theorem deg_block (c : Dev nD) (t : Fin cfg0.N) (p : Fin 4000) (r : Fin 100000) (hr : r.val = t.val * 4000 + p.val) :
    (iblk0 V c 1 t : Vec Ideal S4000x1 .f32) (ix2 p (0 : Fin 1)) = (V c main_v11 : S100000x1.Idx → Elt Ideal .f32) (ix2 r (0 : Fin 1)) := by
  obtain ⟨-, -, e0, e1, -⟩ := block_index t
  unfold iblk0
  rw [View.read_apply]
  show V c main_v11 _ = V c main_v11 _
  refine congrArg (V c main_v11) (funext fun a => Fin.ext ?_)
  match a with
  | ⟨0, _⟩ => show win0_1.index t (0 : Fin 2) * 4000 + 1 * p.val = r.val; rw [e0, hr]; omega
  | ⟨1, _⟩ => show win0_1.index t (1 : Fin 2) * 1 + 1 * 0 = 0; rw [e1]

/-- The weight block at every point is the weight matrix. -/
theorem wgt_block (c : Dev nD) (t : Fin cfg0.N) (k : Fin 256) (q q' : Fin 128) (hq : q'.val = q.val) :
    (iblk0 V c 2 t : Vec Ideal S256x128 .f32) (ix2 k q) = (V c main_arg4 : S256x128.Idx → Elt Ideal .f32) (ix2 k q') := by
  obtain ⟨-, -, -, -, e0, e1, -⟩ := block_index t
  unfold iblk0
  rw [View.read_apply]
  show V c main_arg4 _ = V c main_arg4 _
  refine congrArg (V c main_arg4) (funext fun a => Fin.ext ?_)
  match a with
  | ⟨0, _⟩ => show win0_2.index t (0 : Fin 2) * 256 + 1 * k.val = k.val; rw [e0]; omega
  | ⟨1, _⟩ => show win0_2.index t (1 : Fin 2) * 128 + 1 * q.val = q'.val; rw [e1, hq]; omega

/-- The mask block at every point is the mask matrix. -/
theorem msk_block (c : Dev nD) (t : Fin cfg0.N) (k : Fin 256) (q q' : Fin 128) (hq : q'.val = q.val) :
    (iblk0 V c 3 t : Vec Ideal S256x128 .f32) (ix2 k q) = (V c main_arg6 : S256x128.Idx → Elt Ideal .f32) (ix2 k q') := by
  obtain ⟨-, -, -, -, -, -, e0, e1, -⟩ := block_index t
  unfold iblk0
  rw [View.read_apply]
  show V c main_arg6 _ = V c main_arg6 _
  refine congrArg (V c main_arg6) (funext fun a => Fin.ext ?_)
  match a with
  | ⟨0, _⟩ => show win0_3.index t (0 : Fin 2) * 256 + 1 * k.val = k.val; rw [e0]; omega
  | ⟨1, _⟩ => show win0_3.index t (1 : Fin 2) * 128 + 1 * q.val = q'.val; rw [e1, hq]; omega

/-- What point `t` writes back is block `t` of the projection of the arrays the region found. -/
theorem written_back (c : Dev nD) (t : Fin cfg0.N) :
    (dat0 V c).flushed 4 t = ((cfg0.win 4).blk t).view.read (Elt Ideal)
      (projected (V c main_arg0) (V c main_v11) (V c main_arg4) (V c main_arg6)) := by
  show (cfg0.win 4).cut (grid0.coords t) ((dat0 V c).after 4 t) = _
  rw [after0_4]
  unfold out0_4
  rw [View.canon_unit_zero hz]
  simp only [View.ld_unit_zero (S := S256x128) hz, View.ld_unit_zero (S := S4000x256) hz, View.ld_unit_zero (S := S4000x1) hz]
  obtain ⟨-, -, -, -, -, -, -, -, e0, e1⟩ := block_index t
  funext j
  refine (stored_apply (iblk0 V c 3 t) (iblk0 V c 2 t) (iblk0 V c 0 t) (iblk0 V c 1 t) j).trans ?_
  have h0 : ((((cfg0.win 4).blk t).view.emb j) 0).val = t.val * 4000 + (j 0).val := by
    show win0_4.index t (0 : Fin 2) * 4000 + 1 * (j 0).val = _
    rw [e0]; omega
  have h1 : ((((cfg0.win 4).blk t).view.emb j) 1).val = (j 1).val := by
    show win0_4.index t (1 : Fin 2) * 128 + 1 * (j 1).val = _
    rw [e1]; omega
  show _ = projAt (V c main_arg0) (V c main_v11) (V c main_arg4) (V c main_arg6)
      ((((cfg0.win 4).blk t).view.emb j) 0) ((((cfg0.win 4).blk t).view.emb j) 1)
  unfold projAt
  refine Finset.sum_congr rfl fun k _ => ?_
  refine congrArg₂ (· * ·) (congrArg₂ (· * ·) (feat_block V c t (j 0) k _ h0) (deg_block V c t (j 0) _ h0))
    (congrArg₂ (· * ·) (congrArg (fun x : EReal => ((gate x : ℝ) : EReal)) (msk_block V c t k (j 1) _ h1)) (wgt_block V c t k (j 1) _ h1))

/-- Every row of the result lies in the block of the point its row number divided by 4000 names. -/
theorem rows_tiled (c : Dev nD) (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, e0, e1⟩ := block_index ⟨(i 0).val / 4000, ht⟩
  refine ⟨⟨(i 0).val / 4000, ht⟩, flush0_4 _, ?_⟩
  show i ∈ ((View.whole main_v15).slice (win0_4.rect ⟨(i 0).val / 4000, ht⟩)).set
  rw [View.set_slice_whole, Rect.mem_set_unit]
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_4.index ⟨(i 0).val / 4000, ht⟩ (1 : Fin 2) * 128 ≤ (i 1).val
      ∧ (i 1).val < win0_4.index ⟨(i 0).val / 4000, ht⟩ (1 : Fin 2) * 128 + 128
    rw [e1]; omega

/-- AFTER THE REGION the result array is the projection of the arrays the region found. -/
theorem result (c : Dev nD) :
    (dat0 V c).arrAt 4 cfg0.N = projected (V c main_arg0) (V c main_v11) (V c main_arg4) (V c main_arg6) :=
  (dat0 V c).arrAt_eq_of_cover 4 _ (fun t _ => written_back V c t) (rows_tiled c)

end Cert.KernelIdeal.Projection

end
-- ==== Proof.Closing.lean ====
/-
  The second kernel region, read as one function of whole arrays.

  The region walks the aggregated rows in 25 blocks of 4000. At block `t` it reads rows `4000·t … 4000·t + 3999` of the
  aggregate and of the column of degree factors, and the one bias row, and writes rows `4000·t …` of the result: each entry
  the aggregated entry times its row's degree factor, plus the bias of its column. The blocks tile the result, so after the
  region the result array is `Cert.GNN.closed` of the three arrays the region found.
-/
import proofs.«136725_j89515708383727_1_alg».proof.Proof.Gen.KernelIdeal.Frame
import proofs.«136725_j89515708383727_1_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Closing

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's one stored value at an entry of the block. -/
theorem stored_apply (v0 : Vec Ideal S4000x128 .f32) (v2 : Vec Ideal S4000x1 .f32) (v6 : Vec Ideal S1x128 .f32) (j : S4000x128.Idx) :
    k1_pay1 v0 v2 v6 j
      = v0 (ix2 (j 0 : Fin 4000) (j 1 : Fin 128)) * v2 (ix2 (j 0 : Fin 4000) (0 : Fin 1)) + v6 (ix2 (0 : Fin 1) (j 1 : Fin 128)) := by
  obtain ⟨p, q, rfl⟩ : ∃ (p : Fin 4000) (q : Fin 128), j = ix2 p q := ⟨j 0, j 1, eq_ix2 j⟩
  exact block_closed_apply v0 v2 v6 _ _ _ _ _ p q

/-- Where each window's block sits at grid point `t`: the row windows at block row `t`, the bias row at its one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t` is rows `4000·t …` of the aggregate. -/
theorem agg_block (c : Dev nD) (t : Fin cfg1.N) (p : Fin 4000) (q : Fin 128) (r : Fin 100000) (q' : Fin 128)
    (hr : r.val = t.val * 4000 + p.val) (hq : q'.val = q.val) :
    (iblk1 V c 0 t : Vec Ideal S4000x128 .f32) (ix2 p q) = (V c main_v28 : S100000x128.Idx → Elt Ideal .f32) (ix2 r q') := by
  obtain ⟨e0, e1, -⟩ := block_index t
  unfold iblk1
  rw [View.read_apply]
  show V c main_v28 _ = V c main_v28 _
  refine congrArg (V c main_v28) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * q.val = q'.val; rw [e1, hq]; omega

/-- The degree-factor block at point `t` is rows `4000·t …` of the column. -/
theorem deg_block (c : Dev nD) (t : Fin cfg1.N) (p : Fin 4000) (r : Fin 100000) (hr : r.val = t.val * 4000 + p.val) :
    (iblk1 V c 1 t : Vec Ideal S4000x1 .f32) (ix2 p (0 : Fin 1)) = (V c main_v14 : S100000x1.Idx → Elt Ideal .f32) (ix2 r (0 : Fin 1)) := by
  obtain ⟨-, -, e0, e1, -⟩ := block_index t
  unfold iblk1
  rw [View.read_apply]
  show V c main_v14 _ = V c main_v14 _
  refine congrArg (V c main_v14) (funext fun a => Fin.ext ?_)
  match a with
  | ⟨0, _⟩ => show win1_1.index t (0 : Fin 2) * 4000 + 1 * p.val = r.val; rw [e0, hr]; omega
  | ⟨1, _⟩ => show win1_1.index t (1 : Fin 2) * 1 + 1 * 0 = 0; rw [e1]

/-- The bias block at every point is the bias row. -/
theorem bias_block (c : Dev nD) (t : Fin cfg1.N) (q q' : Fin 128) (hq : q'.val = q.val) :
    (iblk1 V c 2 t : Vec Ideal S1x128 .f32) (ix2 (0 : Fin 1) q) = (V c main_v29 : S1x128.Idx → Elt Ideal .f32) (ix2 (0 : Fin 1) q') := by
  obtain ⟨-, -, -, -, e0, e1, -⟩ := block_index t
  unfold iblk1
  rw [View.read_apply]
  show V c main_v29 _ = V c main_v29 _
  refine congrArg (V c main_v29) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q'.val; rw [e1, hq]; omega

/-- What point `t` writes back is block `t` of the closing step of the arrays the region found. -/
theorem written_back (c : Dev nD) (t : Fin cfg1.N) :
    (dat1 V c).flushed 3 t = ((cfg1.win 3).blk t).view.read (Elt Ideal)
      (closed (V c main_v28) (V c main_v14) (V c main_v29)) := by
  show (cfg1.win 3).cut (grid1.coords t) ((dat1 V c).after 3 t) = _
  rw [after1_3]
  unfold out1_3
  rw [View.canon_unit_zero hz]
  simp only [View.ld_unit_zero (S := S4000x128) hz, View.ld_unit_zero (S := S4000x1) hz, View.ld_unit_zero (S := S1x128) hz]
  obtain ⟨-, -, -, -, -, -, e0, e1⟩ := block_index t
  funext j
  refine (stored_apply (iblk1 V c 0 t) (iblk1 V c 1 t) (iblk1 V c 2 t) j).trans ?_
  have h0 : ((((cfg1.win 3).blk t).view.emb j) 0).val = t.val * 4000 + (j 0).val := by
    show win1_3.index t (0 : Fin 2) * 4000 + 1 * (j 0).val = _
    rw [e0]; omega
  have h1 : ((((cfg1.win 3).blk t).view.emb j) 1).val = (j 1).val := by
    show win1_3.index t (1 : Fin 2) * 128 + 1 * (j 1).val = _
    rw [e1]; omega
  show _ = closedAt (V c main_v28) (V c main_v14) (V c main_v29)
      ((((cfg1.win 3).blk t).view.emb j) 0) ((((cfg1.win 3).blk t).view.emb j) 1)
  unfold closedAt
  refine congrArg₂ (· + ·) (congrArg₂ (· * ·) (agg_block V c t (j 0) (j 1) _ _ h0 h1) (deg_block V c t (j 0) _ h0))
    (bias_block V c t (j 1) _ h1)

/-- Every row of the result lies in the block of the point its row number divided by 4000 names. -/
theorem rows_tiled (c : Dev nD) (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, -, -, e0, e1⟩ := block_index ⟨(i 0).val / 4000, ht⟩
  refine ⟨⟨(i 0).val / 4000, ht⟩, flush1_3 _, ?_⟩
  show i ∈ ((View.whole main_v30).slice (win1_3.rect ⟨(i 0).val / 4000, ht⟩)).set
  rw [View.set_slice_whole, Rect.mem_set_unit]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, ht⟩ (1 : Fin 2) * 128 ≤ (i 1).val
      ∧ (i 1).val < win1_3.index ⟨(i 0).val / 4000, ht⟩ (1 : Fin 2) * 128 + 128
    rw [e1]; omega

/-- AFTER THE REGION the result array is the closing step of the arrays the region found. -/
theorem result (c : Dev nD) :
    (dat1 V c).arrAt 3 cfg1.N = closed (V c main_v28) (V c main_v14) (V c main_v29) :=
  (dat1 V c).arrAt_eq_of_cover 3 _ (fun t _ => written_back V c t) (rows_tiled c)

end Cert.KernelIdeal.Closing

end
-- ==== Proof.HostFold.lean ====
/-
  What the host operations around the two kernel regions compute, and what the regions find when they are entered.

  Before the first region the program counts, for every node, the edges leaving it and the edges entering it (a
  scatter-add of ones along the source and target index arrays), raises each count, clamped below by one, to the power
  minus one half, and lays the two vectors of degree factors out as columns. Between the regions it gathers the projected
  rows along the source indices (negative indices wrapped once), weights each gathered row with its edge weight and
  scatter-adds the rows into their target nodes; it also lays the bias out as a row. This file names those values
  (`degFactor`, `messages`) and reads, through the fold of host operations, the arrays each region's windows see.
-/
import proofs.«136725_j89515708383727_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Glue

open Cert.KernelIdeal Cert.KernelIdeal.Gen

variable {F : FTy → Type} [FloatOps F]

/-- The degree factors of an index array: per node, the number of edges that name it, clamped below by one, to the power
    minus one half. -/
def degFactor (idx : IVec S1600000 32) : FVec F S100000 .f32 :=
  Host.powf (maximumf (broadcastInDim S100000 ![] bcast_S_S100000 (id (constant S_ .f32 0x3F800000#32)))
      (Host.scatterAdd scatter_S100000_S1600000x1_S1600000_n_0_0_1 (broadcastInDim S100000 ![] bcast_S_S100000 (constant S_ .f32 0x00000000#32))
        (broadcastInDim S1600000x1 ![0] bcast_S1600000_S1600000x1_0 idx) (broadcastInDim S1600000 ![] bcast_S_S1600000 (constant S_ .f32 0x3F800000#32))))
    (broadcastInDim S100000 ![] bcast_S_S100000 (constant S_ .f32 0xBF000000#32))

/-- The aggregated messages: row `src e` of `X` (a negative index wrapped once), weighted with `ew e`, summed into row `dst e`. -/
def messages (X : FVec F S100000x128 .f32) (src dst : IVec S1600000 32) (ew : FVec F S1600000 .f32) : FVec F S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 (broadcastInDim S1600000x1 ![0] bcast_S1600000_S1600000x1_0 ew)))

/-- Two stretches of operations run one after the other are their concatenation run as one. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

variable (m : (ℓ : Loc nD τ sig) → Buf (Elt F) ℓ) (ρ : Dev nD → PrngReg)

/-- The first region is entered after the five stretches of host operations before it, run as one. -/
theorem entry0 (c : Dev nD) :
    W5 m ρ c = after (hostOps0 ++ hostOps0_1 ++ hostOps0_2 ++ hostOps0_3 ++ hostOps0_4) (W0 m ρ c) := by
  rw [after_append, after_append, after_append, after_append]

/-- The first region finds the features, the weights and the mask as launched … -/
theorem entry0_feat (c : Dev nD) : V5 m ρ c main_arg0 = m ((c : Thread nD τ).loc main_arg0) := by
  show W5 m ρ c (Proc.devRef .tc main_arg0) = _
  rw [entry0]
  simp only [hostOps0, hostOps0_1, hostOps0_2, hostOps0_3, hostOps0_4, List.cons_append, List.nil_append]
  after_results_simp <;> rfl
theorem entry0_wgt (c : Dev nD) : V5 m ρ c main_arg4 = m ((c : Thread nD τ).loc main_arg4) := by
  show W5 m ρ c (Proc.devRef .tc main_arg4) = _
  rw [entry0]
  simp only [hostOps0, hostOps0_1, hostOps0_2, hostOps0_3, hostOps0_4, List.cons_append, List.nil_append]
  after_results_simp <;> rfl
theorem entry0_msk (c : Dev nD) : V5 m ρ c main_arg6 = m ((c : Thread nD τ).loc main_arg6) := by
  show W5 m ρ c (Proc.devRef .tc main_arg6) = _
  rw [entry0]
  simp only [hostOps0, hostOps0_1, hostOps0_2, hostOps0_3, hostOps0_4, List.cons_append, List.nil_append]
  after_results_simp <;> rfl
/-- … and the source side's degree factors as a column. -/
theorem entry0_deg (c : Dev nD) :
    V5 m ρ c main_v11 = shapeCast S100000x1 (degFactor (F := F) (m ((c : Thread nD τ).loc main_arg1))) shapeCasts_S100000_S100000x1 := by
  show W5 m ρ c (Proc.devRef .tc main_v11) = _
  rw [entry0]
  simp only [hostOps0, hostOps0_1, hostOps0_2, hostOps0_3, hostOps0_4, List.cons_append, List.nil_append]
  after_results_simp <;> rfl

/-- The second region is entered after the one stretch between the regions, run from the first region's exit. It finds the
    target side's degree factors as a column … -/
theorem entry1_deg (c : Dev nD) :
    V7 m ρ c main_v14 = shapeCast S100000x1 (degFactor (F := F) (m ((c : Thread nD τ).loc main_arg2))) shapeCasts_S100000_S100000x1 := by
  show after hostOps1 (W6 m ρ c) (Proc.devRef .tc main_v14) = _
  have e : after hostOps1 (W6 m ρ c) (Proc.devRef .tc main_v14) = W6 m ρ c (Proc.devRef .tc main_v14) := by
    simp only [hostOps1]
    after_results_simp <;> rfl
  rw [e, W6_of_ne m ρ c main_v14 (by decide)]
  show W5 m ρ c (Proc.devRef .tc main_v14) = _
  rw [entry0]
  simp only [hostOps0, hostOps0_1, hostOps0_2, hostOps0_3, hostOps0_4, List.cons_append, List.nil_append]
  after_results_simp <;> rfl

/-- An argument array is still as launched at the first region's exit. -/
theorem exit0_arg (c : Dev nD) (b : Ref sig .tc) (hb : ∀ w, Pipeline.arrRef spec0 w ≠ b)
    (h5 : W5 m ρ c (Proc.devRef .tc b) = m ((c : Thread nD τ).loc b)) :
    W6 m ρ c (Proc.devRef .tc b) = m ((c : Thread nD τ).loc b) :=
  (W6_of_ne m ρ c b hb).trans h5

theorem entry0_src (c : Dev nD) : W5 m ρ c (Proc.devRef .tc main_arg1) = m ((c : Thread nD τ).loc main_arg1) := by
  rw [entry0]
  simp only [hostOps0, hostOps0_1, hostOps0_2, hostOps0_3, hostOps0_4, List.cons_append, List.nil_append]
  after_results_simp <;> rfl
theorem entry0_dst (c : Dev nD) : W5 m ρ c (Proc.devRef .tc main_arg2) = m ((c : Thread nD τ).loc main_arg2) := by
  rw [entry0]
  simp only [hostOps0, hostOps0_1, hostOps0_2, hostOps0_3, hostOps0_4, List.cons_append, List.nil_append]
  after_results_simp <;> rfl
theorem entry0_ew (c : Dev nD) : W5 m ρ c (Proc.devRef .tc main_arg3) = m ((c : Thread nD τ).loc main_arg3) := by
  rw [entry0]
  simp only [hostOps0, hostOps0_1, hostOps0_2, hostOps0_3, hostOps0_4, List.cons_append, List.nil_append]
  after_results_simp <;> rfl
theorem entry0_bias (c : Dev nD) : W5 m ρ c (Proc.devRef .tc main_arg5) = m ((c : Thread nD τ).loc main_arg5) := by
  rw [entry0]
  simp only [hostOps0, hostOps0_1, hostOps0_2, hostOps0_3, hostOps0_4, List.cons_append, List.nil_append]
  after_results_simp <;> rfl

/-- … the bias as a row … -/
theorem entry1_bias (c : Dev nD) :
    V7 m ρ c main_v29 = shapeCast S1x128 (m ((c : Thread nD τ).loc main_arg5)) shapeCasts_S128_S1x128 := by
  show after hostOps1 (W6 m ρ c) (Proc.devRef .tc main_v29) = _
  have e : after hostOps1 (W6 m ρ c) (Proc.devRef .tc main_v29)
      = shapeCast S1x128 (W6 m ρ c (Proc.devRef .tc main_arg5)) shapeCasts_S128_S1x128 := by
    simp only [hostOps1]
    after_results_simp <;> rfl
  rw [e, exit0_arg m ρ c main_arg5 (by decide) (entry0_bias m ρ c)]

/-- … and the messages aggregated from the first region's result. -/
theorem entry1_agg (c : Dev nD) :
    V7 m ρ c main_v28 = messages (F := F) ((dat0 (V5 m ρ) c).arrAt 4 cfg0.N) (m ((c : Thread nD τ).loc main_arg1))
      (m ((c : Thread nD τ).loc main_arg2)) (m ((c : Thread nD τ).loc main_arg3)) := by
  show after hostOps1 (W6 m ρ c) (Proc.devRef .tc main_v28) = _
  have e : after hostOps1 (W6 m ρ c) (Proc.devRef .tc main_v28)
      = messages (F := F) (W6 m ρ c (Proc.devRef .tc main_v15)) (W6 m ρ c (Proc.devRef .tc main_arg1))
          (W6 m ρ c (Proc.devRef .tc main_arg2)) (W6 m ρ c (Proc.devRef .tc main_arg3)) := by
    simp only [hostOps1]
    after_results_simp <;> rfl
  rw [e, exit0_arg m ρ c main_arg1 (by decide) (entry0_src m ρ c), exit0_arg m ρ c main_arg2 (by decide) (entry0_dst m ρ c),
    exit0_arg m ρ c main_arg3 (by decide) (entry0_ew m ρ c), W6_arr m ρ c 4]

end Cert.KernelIdeal.Glue

end
-- ==== Proof.KernelValue.lean ====
/-
  The idealized kernel program's result as one function of the arrays it was launched with.

  The second region's write-backs leave the closing step of what that region found (`Closing.result`); what it found are the
  messages aggregated from the first region's result, the target side's degree factors as a column and the bias as a row
  (`Glue.entry1_…`); the first region's result is the projection of what it found (`Projection.result`): the features,
  the weights and the mask as launched and the source side's degree factors as a column (`Glue.entry0_…`).
-/
import proofs.«136725_j89515708383727_1_alg».proof.Proof.KernelRun
import proofs.«136725_j89515708383727_1_alg».proof.Proof.Projection
import proofs.«136725_j89515708383727_1_alg».proof.Proof.Closing
import proofs.«136725_j89515708383727_1_alg».proof.Proof.HostFold

set_option maxRecDepth 16384

noncomputable section

open Idealize.ShloMosaic Idealize.ShloMosaic.TcCoe Idealize.SL.Sem

namespace Cert.KernelIdeal.Whole

open Cert.KernelIdeal Cert.KernelIdeal.Gen Cert.KernelIdeal.Glue Cert.GNN

variable (m : (ℓ : Loc nD τ sig) → Buf (Elt Ideal) ℓ) (ρ : Dev nD → PrngReg)

/-- The layer's output from the launch arrays: project, aggregate along the edges, close. -/
def value (c : Dev nD) : FVec Ideal S100000x128 .f32 :=
  closed
    (messages
      (projected (m ((c : Thread nD τ).loc main_arg0))
        (shapeCast S100000x1 (degFactor (F := Ideal) (m ((c : Thread nD τ).loc main_arg1))) shapeCasts_S100000_S100000x1)
        (m ((c : Thread nD τ).loc main_arg4)) (m ((c : Thread nD τ).loc main_arg6)))
      (m ((c : Thread nD τ).loc main_arg1)) (m ((c : Thread nD τ).loc main_arg2)) (m ((c : Thread nD τ).loc main_arg3)))
    (shapeCast S100000x1 (degFactor (F := Ideal) (m ((c : Thread nD τ).loc main_arg2))) shapeCasts_S100000_S100000x1)
    (shapeCast S1x128 (m ((c : Thread nD τ).loc main_arg5)) shapeCasts_S128_S1x128)

/-- The result array after the second region is that function of the launch arrays. -/
theorem result_eq (c : Dev nD) : (dat1 (V7 m ρ) c).arrAt 3 cfg1.N = value m c := by
  rw [Closing.result (V7 m ρ) c, entry1_agg, entry1_deg, entry1_bias, Projection.result (V5 m ρ) c, entry0_feat, entry0_deg,
    entry0_wgt, entry0_msk]
  rfl

/-- Every weakly fair execution of the idealized kernel program ends with the result array at `value` and the arguments as
    launched. -/
theorem run : θ_run defs (onTc (τ := τ) (main (F := Ideal))) ⟨m, fun _ => 0, ρ⟩ (fun r => ∀ c : Dev nD,
      r.2.mem ((c.tc : Thread nD τ).loc main_v30) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.Named.run_named m ρ)

end Cert.KernelIdeal.Whole

end
-- ==== Proof.RefValue.lean ====
/-
  The idealized reference program's result, brought to the same form.

  The reference computes the same layer with plain array operations: it lays the degree vectors along the columns by
  broadcasting, forms the weights through a straight-through estimator `(gate − mask) + mask`, multiplies with one whole
  matrix product, aggregates along the edges, scales, and adds the bias laid along the rows. Under the precondition (every
  mask entry a real number) its product is the projection and its last two operations are the closing step
  (`Cert.GNN.host_product_eq`, `host_closed_eq`).
-/
import proofs.«136725_j89515708383727_1_alg».proof.Proof.Gen.ReferenceIdeal.Run
import proofs.«136725_j89515708383727_1_alg».proof.Proof.Spec

set_option maxRecDepth 16384

noncomputable section

open Idealize.ShloMosaic Idealize.ShloMosaic.TcCoe Idealize.SL.Sem

namespace Cert.ReferenceIdeal.Whole

open Cert.ReferenceIdeal Cert.ReferenceIdeal.Gen Cert.GNN

variable {F : FTy → Type} [FloatOps F]

/-- The degree factors of an index array: per node, the number of edges that name it, clamped below by one, to the power
    minus one half. -/
def degFactor (idx : IVec S1600000 32) : FVec F S100000 .f32 :=
  Host.powf (maximumf (broadcastInDim S100000 ![] bcast_S_S100000 (id (constant S_ .f32 0x3F800000#32)))
      (Host.scatterAdd scatter_S100000_S1600000x1_S1600000_n_0_0_1 (broadcastInDim S100000 ![] bcast_S_S100000 (constant S_ .f32 0x00000000#32))
        (broadcastInDim S1600000x1 ![0] bcast_S1600000_S1600000x1_0 idx) (broadcastInDim S1600000 ![] bcast_S_S1600000 (constant S_ .f32 0x3F800000#32))))
    (broadcastInDim S100000 ![] bcast_S_S100000 (constant S_ .f32 0xBF000000#32))

/-- The aggregated messages: row `src e` of `X` (a negative index wrapped once), weighted with `ew e`, summed into row `dst e`. -/
def messages (X : FVec F S100000x128 .f32) (src dst : IVec S1600000 32) (ew : FVec F S1600000 .f32) : FVec F S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 X
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1 (broadcastInDim S1600000x1 ![0] bcast_S1600000_S1600000x1_0 ew)))

/-- The reference's composed term, its sub-terms named: with every mask entry a real number it is the closing step of the
    messages aggregated from the projection. -/
theorem value_eq (feat : FVec Ideal S100000x256 .f32) (src dst : IVec S1600000 32) (ew : FVec Ideal S1600000 .f32)
    (wgt : FVec Ideal S256x128 .f32) (bias : FVec Ideal S128 .f32) (msk : FVec Ideal S256x128 .f32)
    (hs : S100000.ShapeCasts S100000x1) (hs' : S128.ShapeCasts S1x128)
    (hfin : ∀ i, ∃ r : ℝ, msk i = (r : EReal)) :
    addf (mulf (messages (F := Ideal)
          (Host.dotGeneral dot_S100000x256_S256x128_S100000x128_1_0_0_1_n_n none
            (mulf feat (broadcastInDim S100000x256 ![0, 1] bcast_S100000x1_S100000x256_0_1
              (broadcastInDim S100000x1 ![0] bcast_S100000_S100000x1_0 (degFactor (F := Ideal) src))))
            (mulf (addf (subf (uitofp .f32 (cmpf .ogt msk (broadcastInDim S256x128 ![] bcast_S_S256x128 (constant S_ .f32 0x3F000000#32)))) msk) msk) wgt))
          src dst ew)
        (broadcastInDim S100000x128 ![0, 1] bcast_S100000x1_S100000x128_0_1
          (broadcastInDim S100000x1 ![0] bcast_S100000_S100000x1_0 (degFactor (F := Ideal) dst))))
      (broadcastInDim S100000x128 ![0, 1] bcast_S1x128_S100000x128_0_1 (broadcastInDim S1x128 ![1] bcast_S128_S1x128_1 bias))
    = closed (messages (F := Ideal) (projected feat (shapeCast S100000x1 (degFactor (F := Ideal) src) hs) wgt msk) src dst ew)
        (shapeCast S100000x1 (degFactor (F := Ideal) dst) hs) (shapeCast S1x128 bias hs') := by
  have e1 : Host.dotGeneral dot_S100000x256_S256x128_S100000x128_1_0_0_1_n_n none
        (mulf feat (broadcastInDim S100000x256 ![0, 1] bcast_S100000x1_S100000x256_0_1
          (broadcastInDim S100000x1 ![0] bcast_S100000_S100000x1_0 (degFactor (F := Ideal) src))))
        (mulf (addf (subf (uitofp .f32 (cmpf .ogt msk (broadcastInDim S256x128 ![] bcast_S_S256x128 (constant S_ .f32 0x3F000000#32)))) msk) msk) wgt)
      = projected feat (shapeCast S100000x1 (degFactor (F := Ideal) src) hs) wgt msk :=
    host_product_eq (N := 100000) (K := 256) (M := 128) none feat (degFactor (F := Ideal) src) wgt msk
      bcast_S100000_S100000x1_0 bcast_S100000x1_S100000x256_0_1 bcast_S_S256x128 hs hfin
  rw [e1]
  exact host_closed_eq (N := 100000) (M := 128) _ (degFactor (F := Ideal) dst) bias
    bcast_S100000_S100000x1_0 bcast_S100000x1_S100000x128_0_1 bcast_S128_S1x128_1 bcast_S1x128_S100000x128_0_1 hs hs'

end Cert.ReferenceIdeal.Whole

end
-- ==== Proof.Finite.lean ====
/-
  The precondition, read back for the mask.

  The precondition says of every float input that each entry's absolute value is below plus infinity; it is printed as a
  conjunction of five "all entries" reductions. Its last conjunct speaks of the mask: every mask entry is then a real
  number, neither infinity — which is what lets a value subtracted from the gate and added back cancel.
-/
import proofs.«136725_j89515708383727_1_alg».proof.Pre_finite_inputs
import proofs.«136725_j89515708383727_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs

instance : Subsingleton S_.Idx := ⟨fun a b => funext fun d => d.elim0⟩

/-- The word of plus infinity denotes the top element. -/
theorem inf_word : Ideal.ofBits .f32 0x7F800000#32 = (⊤ : EReal) := by simp [Ideal.ofBits, Ideal.ieee]

/-- An extended real whose absolute value compares below plus infinity is a real number. -/
theorem real_of_abs_lt (x : EReal) (h : Ideal.cmp .olt (max x (-x)) (Ideal.ofBits .f32 0x7F800000#32) = 1#1) :
    ∃ r : ℝ, x = (r : EReal) := by
  rw [inf_word] at h
  have hb : ∀ b : Bool, BitVec.ofBool b = 1#1 → b = true := by decide
  have hlt : max x (-x) < ⊤ := of_decide_eq_true (hb _ h)
  induction x using EReal.rec with
  | bot => simp at hlt
  | coe r => exact ⟨r, rfl⟩
  | top => simp at hlt

/-- Under the precondition every mask entry is a real number. -/
theorem mask_real (a0 : FVec Ideal S100000x256 .f32) (a1 a2 : IVec S1600000 32) (a3 : FVec Ideal S1600000 .f32)
    (a4 : FVec Ideal S256x128 .f32) (a5 : FVec Ideal S128 .f32) (a6 : FVec Ideal S256x128 .f32)
    (h : fn (F := Ideal) a0 a1 a2 a3 a4 a5 a6 = fun _ => 1#1) (i : S256x128.Idx) : ∃ r : ℝ, a6 i = (r : EReal) := by
  have h0 := congrFun h ValueIdx.ix0
  dsimp only [fn, fn_part1] at h0
  obtain ⟨-, h22⟩ := IntOp.andi_eq_one.1 h0
  exact real_of_abs_lt (a6 i) (Host.reduce_andi_all _ _ _ _ _ h22 i)

end Cert.Pre_finite_inputs.Finite

end
-- ==== Proof.lean ====
/-
  A graph layer with a binarised weight mask, as a fused kernel program and as plain array code: the two compute one
  function of their inputs at the ideal values.

  The layer: scale each node's features with (out-degree clamped below by one) to the power minus one half; multiply with
  the weights gated entry by entry by "mask entry above one half"; for every edge take the projected row of its source node,
  weight it with the edge weight and add it into the row of its target node; scale each node's sum with (in-degree clamped
  below by one) to the power minus one half and add the bias.

  The kernel program does the projection and the closing scale-and-shift in two row-blocked kernel regions (25 blocks of 4000
  rows each) and the degree counts and the edge aggregation in host operations around them; its regions' results are read
  off the frame run as whole-array functions (Proof/Projection.lean, Proof/Closing.lean, over Proof/KernelRun.lean and
  Proof/HostFold.lean) and composed in Proof/KernelValue.lean. The reference does everything with host operations; its
  composed term is brought to the same form in Proof/RefValue.lean. Three things differ between the two and are equal at the
  ideal values: the product is blocked by rows and fed operands rounded to a narrower format in the kernel, one whole product
  in the reference (the same sums over the 256 input channels, Proof/LibDot.lean); the gate is a widened bit converted signed
  in the kernel and the bit converted in the reference; and the reference's weights carry a straight-through estimator
  `(gate − mask) + mask`, which is the gate because the precondition makes every mask entry a real number
  (Proof/Finite.lean, Proof/Spec.lean). The edge aggregation is the same operations on both sides and is never opened.
  The ideal pass rewrote nothing in the kernel, so the idealization claim is trivial.
-/
import proofs.«136725_j89515708383727_1_alg».proof.Defs
import proofs.«136725_j89515708383727_1_alg».proof.Proof.Gen.Kernel
import proofs.«136725_j89515708383727_1_alg».proof.Proof.Gen.Kernel.Skeleton
import proofs.«136725_j89515708383727_1_alg».proof.Proof.Gen.Kernel.Launch
import proofs.«136725_j89515708383727_1_alg».proof.Proof.Gen.Kernel.Points
import proofs.«136725_j89515708383727_1_alg».proof.Proof.Gen.Kernel.Frame
import proofs.«136725_j89515708383727_1_alg».proof.Proof.Gen.KernelIdeal
import proofs.«136725_j89515708383727_1_alg».proof.Proof.Gen.KernelIdeal.Skeleton
import proofs.«136725_j89515708383727_1_alg».proof.Proof.Gen.KernelIdeal.Launch
import proofs.«136725_j89515708383727_1_alg».proof.Proof.Gen.KernelIdeal.Points
import proofs.«136725_j89515708383727_1_alg».proof.Proof.Gen.KernelIdeal.Frame
import proofs.«136725_j89515708383727_1_alg».proof.Proof.Gen.ReferenceIdeal
import proofs.«136725_j89515708383727_1_alg».proof.Proof.Gen.Pre_finite_inputs
import proofs.«136725_j89515708383727_1_alg».proof.Proof.KernelValue
import proofs.«136725_j89515708383727_1_alg».proof.Proof.RefValue
import proofs.«136725_j89515708383727_1_alg».proof.Proof.Finite
import Idealize.ShloMosaic.Adequacy
import Idealize.ShloMosaic.Init

set_option maxRecDepth 16384

noncomputable section

namespace Cert.Proof

open Idealize.ShloMosaic Idealize.SL.Sem

/-- The word-level kernel program runs, faults nowhere and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs too: its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output `Cert.KernelIdeal.Whole.value` of the shared inputs: the kernel program by its
    regions read as whole-array functions, the reference by its composed term brought to that form — its straight-through
    weights are the gated weights since, by the precondition, every mask entry is a real number. -/
theorem algebraic : Cert.algebraic_KernelIdeal_ReferenceIdeal := by
  intro m ρ m' ρ' hpre hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  have hfin := Cert.Pre_finite_inputs.Finite.mask_real _ _ _ _ _ _ _ (hpre c)
  refine (Cert.ReferenceIdeal.Whole.value_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    Cert.KernelIdeal.Gen.shapeCasts_S100000_S100000x1 Cert.KernelIdeal.Gen.shapeCasts_S128_S1x128 hfin).trans ?_
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
